-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S1024x128 : Shape := ⟨2, ![1024, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel

variable [Facts]

def fn {F : FTy → Type} [FloatOps F] (main_arg0 : IVec S1024 32) (main_arg1 : IVec S1024 32) (main_arg2 : FVec F S1024x128 .f32) : IVec S_ 1 :=
  let main_v0 : FVec F S1024x128 .f32 := Host.absf main_arg2
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  main_v3
-- ==== Kernel.lean ====
abbrev S1024 : Shape := ⟨1, ![1024]⟩
abbrev S1024x128 : Shape := ⟨2, ![1024, 128]⟩
abbrev S1x1024 : Shape := ⟨2, ![1, 1024]⟩
abbrev S2048x128 : Shape := ⟨2, ![2048, 128]⟩
abbrev S512x128 : Shape := ⟨2, ![512, 128]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S1024x128, .f32⟩
  | .hbm, ⟨3, _⟩ => ⟨S1x1024, .i32⟩
  | .hbm, ⟨4, _⟩ => ⟨S1x1024, .i32⟩
  | .hbm, ⟨5, _⟩ => ⟨S2048x128, .f32⟩
  | .local _ .vmem, ⟨0, _⟩ => ⟨S1x1024, .i32⟩
  | .local _ .vmem, ⟨1, _⟩ => ⟨S1x1024, .i32⟩
  | .local _ .vmem, ⟨2, _⟩ => ⟨S1024x128, .f32⟩
  | .local _ .vmem, ⟨3, _⟩ => ⟨S512x128, .f32⟩
  | .local _ .vmem, ⟨4, _⟩ => ⟨S512x128, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  iota_S512x1024_d0_w32 : S512x1024.Iotas .tc 32 [0]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  natLt_1_32 : 1 < 32
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S512x128_S512x128_0_0 : ∀ a, (![0, 0] : Fin 2 → Nat) a + S512x128.size a ≤ S512x128.size a
  h_S512x128 : 0 < S512x128.numel
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .i32 = 32 ∨ (Rect.block (s := S1x1024) S1x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .i32 = 32 ∨ (Rect.block (s := S1x1024) S1x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S2048x128.size a
  hwx0_3 : ∀ i : grid0.Coords, EltTy.bits .f32 = 32 ∨ (Rect.block (s := S2048x128) S512x128.size (cc0_transform_3 i) (hinb0_3 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_v0) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024 : Shape := ⟨1, ![1024]⟩
abbrev S1024x128 : Shape := ⟨2, ![1024, 128]⟩
abbrev S2048 : Shape := ⟨1, ![2048]⟩
abbrev S1024x1 : Shape := ⟨2, ![1024, 1]⟩
abbrev S1x2048 : Shape := ⟨2, ![1, 2048]⟩
abbrev S1024x2048 : Shape := ⟨2, ![1024, 2048]⟩
abbrev S2048x128 : Shape := ⟨2, ![2048, 128]⟩

abbrev nBuf : Space → Nat
  | .hbm => 17
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S1024x128, .f32⟩
  | .hbm, ⟨3, _⟩ => ⟨S2048, .i32⟩
  | .hbm, ⟨4, _⟩ => ⟨S1024x1, .i32⟩
  | .hbm, ⟨5, _⟩ => ⟨S1x2048, .i32⟩
  | .hbm, ⟨6, _⟩ => ⟨S1024x2048, .i32⟩
  | .hbm, ⟨7, _⟩ => ⟨S1024x2048, .i32⟩
  | .hbm, ⟨8, _⟩ => ⟨S1024x2048, .i1⟩
  | .hbm, ⟨9, _⟩ => ⟨S1x2048, .i32⟩
  | .hbm, ⟨10, _⟩ => ⟨S1024x1, .i32⟩
  | .hbm, ⟨11, _⟩ => ⟨S1024x2048, .i32⟩
  | .hbm, ⟨12, _⟩ => ⟨S1024x2048, .i32⟩
  | .hbm, ⟨13, _⟩ => ⟨S1024x2048, .i1⟩
  | .hbm, ⟨14, _⟩ => ⟨S1024x2048, .i1⟩
  | .hbm, ⟨15, _⟩ => ⟨S1024x2048, .f32⟩
  | .hbm, ⟨16, _⟩ => ⟨S2048x128, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S2048_S1x2048_1 : S2048.BroadcastsInDim S1x2048 (![1] : Fin 1 → Fin S1x2048.rank)
  bcast_S1024x1_S1024x2048_0_1 : S1024x1.BroadcastsInDim S1024x2048 (![0, 1] : Fin 2 → Fin S1024x2048.rank)
  bcast_S1x2048_S1024x2048_0_1 : S1x2048.BroadcastsInDim S1024x2048 (![0, 1] : Fin 2 → Fin S1024x2048.rank)
  dot_S1024x2048_S1024x128_S2048x128_0_0_1_1_n_n_wf : DotDims.WF S1024x2048 S1024x128 S2048x128 [0] [0] [1] [1] [] []

variable [Facts₀]

def dot_S1024x2048_S1024x128_S2048x128_0_0_1_1_n_n : DotDims S1024x2048 S1024x128 S2048x128 where
  lhsContracting := [0]
  rhsContracting := [0]
  lhsNonContracting := [1]
  rhsNonContracting := [1]
  lhsBatch := []
  rhsBatch := []
  wf := dot_S1024x2048_S1024x128_S2048x128_0_0_1_1_n_n_wf

class Facts : Prop extends Facts₀ where

variable [Facts]
-- ==== Proof.SpanSpec.lean ====
/-
  The span scatter, as one function of the three argument arrays.

  Node k owns the closed token span [starts k, ends k] (32-bit words compared as signed integers). Token t receives
  the embedding rows of every node whose span holds it:

      out (t, q) = Σ_{k < 1024} [starts k ≤ t ≤ ends k] · embed (k, q)        (t < 2048, q < 128)

  the bracket being the indicator 0 / 1 on the extended reals. Both programs compute exactly this sum, term by
  term, so no law of the extended reals beyond reading each side at an index is needed, and no input need be finite.
-/
import Idealize.ShloMosaic.PureOps.Ideal.Laws
import Idealize.ShloMosaic.Lib.ValueIdx

noncomputable section

namespace Cert.Span

open Idealize.ShloMosaic Idealize.ShloMosaic.ValueIdx

/-- Whether token word `t` lies in the closed span `[s, e]`, as one bit: the conjunction of the two signed
    comparisons `s ≤ t` and `t ≤ e`. -/
def bit (s e t : BitVec 32) : BitVec 1 := IntOp.andi (IntOp.cmpi .sle s t) (IntOp.cmpi .sle t e)

/-- The indicator of a bit on the extended reals: 0 or 1. -/
def weight (b : BitVec 1) : EReal := ((b.toNat : ℝ) : EReal)

/-- The scatter: entry (t, q) is the sum over the nodes k whose span holds t of embed (k, q). -/
def G (starts ends : IVec ⟨1, ![1024]⟩ 32) (embed : FVec Ideal ⟨2, ![1024, 128]⟩ .f32) :
    FVec Ideal ⟨2, ![2048, 128]⟩ .f32 :=
  fun j => ∑ k : Fin 1024, weight (bit (starts (ix1 k)) (ends (ix1 k)) (BitVec.ofNat 32 (j 0).val)) * embed (ix2 k (j 1))

/-- A bit widened to a 32-bit word and read as a SIGNED integer is the bit's indicator: the word is 0 or 1, never
    negative. -/
theorem sitofp_widen (b : BitVec 1) : FloatOps.sitofp (F := Ideal) .f32 (b.setWidth 32) = weight b := by
  have h : ∀ b : BitVec 1, (b.setWidth 32).toInt = (b.toNat : Int) := by decide
  show (((b.setWidth 32).toInt : ℝ) : EReal) = ((b.toNat : ℝ) : EReal)
  rw [h b]; norm_cast

/-- A bit read as an UNSIGNED integer is its indicator. -/
theorem uitofp_bit (b : BitVec 1) : FloatOps.uitofp (F := Ideal) .f32 b = weight b := rfl

/-- The token a grid point's row stands for: block `a` of 512 rows, row `p` inside it, computed in 32-bit words as
    `a · 512 + p`, is the word of the natural number `512 · a + p`. -/
theorem token_word (a p : Nat) :
    IntOp.addi (Scalar.muli (BitVec.ofNat 32 a) 512#32) (BitVec.ofNat 32 (0 * 512 + p)) = BitVec.ofNat 32 (a * 512 + p) := by
  show BitVec.ofNat 32 a * 512#32 + BitVec.ofNat 32 (0 * 512 + p) = BitVec.ofNat 32 (a * 512 + p)
  apply BitVec.eq_of_toNat_eq
  simp [BitVec.toNat_add, BitVec.toNat_mul, BitVec.toNat_ofNat, Nat.add_mod, Nat.mul_mod]

end Cert.Span

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.SpanKernel.lean ====
/-
  The kernel's block is the span scatter's block.

  At grid point a (0 ≤ a < 4) the body holds the 512 token rows a · 512 + p. It builds the [512, 1024] table of span
  bits (row p, node k: the token word a · 512 + p compared with the node's two bounds, broadcast from their
  [1, 1024] rows), converts the bits to 0 / 1, and multiplies that table into the embedding table; both roundings
  to a narrower float format are the identity on the extended reals. Read at (p, q) the product is the sum over
  the nodes k of the bit of (p, k) times embed (k, q): the scatter's entry (a · 512 + p, q).
-/
import proofs.«155552_j31129922962204_1_alg».proof.Proof.Gen.KernelIdeal.Skeleton
import proofs.«155552_j31129922962204_1_alg».proof.Proof.SpanSpec
import proofs.«155552_j31129922962204_1_alg».proof.Proof.LibPlainDot
import Idealize.ShloMosaic.Lib.Pipeline.Value

noncomputable section

namespace Cert.Span.Kern

open Cert.KernelIdeal Cert.KernelIdeal.Gen Idealize.ShloMosaic Idealize.ShloMosaic.ValueIdx

/-- A [1, 1024] row of words, broadcast down 512 rows, read at (p, k), is the row's word k. -/
theorem row_bcast (x : IVec S1x1024 32) (h1 : S1x1024.ShapeCasts S1x1024) (h2 : S1x1024.Broadcasts S512x1024)
    (p : Fin 512) (k : Fin 1024) :
    broadcastTo S512x1024 (shapeCast S1x1024 x h1) h2 (ix2 p k) = x (ix2 0 k) := by
  rw [shapeCast_self]
  exact broadcastTo_apply x h2 (ix2 p k) (ix2 0 k) (fun a => match a with
    | ⟨0, _⟩ => by show 0 = if (1 : Nat) = 1 then 0 else _; rw [if_pos rfl]
    | ⟨1, _⟩ => by show k.val = if (1024 : Nat) = 1 then 0 else _; rw [if_neg (by decide)]; rfl)

/-- The body's stored value at (p, q), at grid point `i`, over blocks that hold the nodes' bounds and the
    embedding table: the scatter's entry at any index whose row is `i · 512 + p` and whose column is `q`. -/
theorem pay_apply (i : grid0.Coords) (x0 x1 : Vec Ideal S1x1024 .i32) (x2 : Vec Ideal S1024x128 .f32)
    (starts ends : IVec ⟨1, ![1024]⟩ 32) (embed : FVec Ideal ⟨2, ![1024, 128]⟩ .f32)
    (h0 : ∀ k : Fin 1024, x0 (ix2 0 k) = starts (ix1 k)) (h1 : ∀ k : Fin 1024, x1 (ix2 0 k) = ends (ix1 k))
    (h2 : ∀ (k : Fin 1024) (q : Fin 128), x2 (ix2 k q) = embed (ix2 k q))
    (p : Fin 512) (q : Fin 128) (j : (⟨2, ![2048, 128]⟩ : Shape).Idx)
    (hr : (j 0).val = (i 0).val * 512 + p.val) (hq : j 1 = q) :
    k0_pay1 (F := Ideal) i x0 x1 x2 (ix2 p q) = Cert.Span.G starts ends embed j := by
  unfold k0_pay1
  dsimp only
  refine (PlainDot.matmul_zero_apply (d := dot_S512x1024_S1024x128_S512x128_1_0_0_1_n_n) ⟨rfl, rfl, rfl, rfl, rfl, rfl⟩ none _ _ p q).trans ?_
  unfold Cert.Span.G
  rw [hr, hq]
  refine Finset.sum_congr rfl fun k _ => ?_
  -- the bit table's entry (p, k), converted: the indicator of the span bit of node k at token i · 512 + p
  show FloatOps.sitofp (F := Ideal) .f32
      ((IntOp.andi
        (IntOp.cmpi .sle (broadcastTo S512x1024 (shapeCast S1x1024 x0 shapeCasts_S1x1024_S1x1024) broadcasts_S1x1024_S512x1024 (ix2 p k))
          (IntOp.addi (Scalar.muli (BitVec.ofNat 32 (i 0).val) 512#32) (BitVec.ofNat 32 (0 * 512 + p.val))))
        (IntOp.cmpi .sle (IntOp.addi (Scalar.muli (BitVec.ofNat 32 (i 0).val) 512#32) (BitVec.ofNat 32 (0 * 512 + p.val)))
          (broadcastTo S512x1024 (shapeCast S1x1024 x1 shapeCasts_S1x1024_S1x1024) broadcasts_S1x1024_S512x1024 (ix2 p k)))).setWidth 32)
      * x2 (ix2 k q) = _
  rw [row_bcast, row_bcast, Cert.Span.token_word, h0, h1, h2, Cert.Span.sitofp_widen]
  rfl

end Cert.Span.Kern

end
-- ==== Proof.SpanArray.lean ====
/-
  From the kernel's blocks to its whole result array.

  The grid has four points; point t writes back rows t · 512 … t · 512 + 511 of the [2048, 128] result, all 128
  columns, and the three inputs are staged whole at every point (the nodes' bounds as [1, 1024] rows: the host
  reshapes the two [1024] arguments before the call). So what point t writes back is block t of the span
  scatter of the three arguments, the four blocks tile the result, and the result array ends holding the scatter.
-/
import proofs.«155552_j31129922962204_1_alg».proof.Proof.KernelIdealValue
import proofs.«155552_j31129922962204_1_alg».proof.Proof.SpanKernel
import Idealize.ShloMosaic.Lib.StableHlo.Run

noncomputable section

namespace Cert.Span.Arr

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The three arguments as launched on core `c`. -/
abbrev starts (c : Dev nD) : IVec S1024 32 := m ((c : Thread nD τ).loc main_arg0)
abbrev ends (c : Dev nD) : IVec S1024 32 := m ((c : Thread nD τ).loc main_arg1)
abbrev embed (c : Dev nD) : FVec Ideal S1024x128 .f32 := m ((c : Thread nD τ).loc main_arg2)

/-- The scatter of the three arguments: what the result array is to hold. -/
abbrev want (c : Dev nD) : S2048x128.Idx → Elt Ideal .f32 := Cert.Span.G (starts m c) (ends m c) (embed m c)

/-! ## The arrays the region finds -/

/-- The first window's array is the [1, 1024] reshape of the nodes' lower bounds. -/
theorem V_v0 (c : Dev nD) : (V m c main_v0 : S1x1024.Idx → BitVec 32) = shapeCast S1x1024 (starts m c) shapeCasts_S1024_S1x1024 := by
  dsimp only [V, hostOps0]; after_results; rfl

/-- The second window's array is the [1, 1024] reshape of the nodes' upper bounds. -/
theorem V_v1 (c : Dev nD) : (V m c main_v1 : S1x1024.Idx → BitVec 32) = shapeCast S1x1024 (ends m c) shapeCasts_S1024_S1x1024 := by
  dsimp only [V, hostOps0]; after_results; rfl

/-- A [1024] vector reshaped to [1, 1024], read at (0, k), is its entry k. -/
theorem reshape_row (x : IVec S1024 32) (h : S1024.ShapeCasts S1x1024) (k : Fin 1024) :
    shapeCast S1x1024 x h (ix2 0 k) = x (ix1 k) := by
  refine (shapeCast_addUnit_apply ![1024] x h (ix2 0 k)).trans (congrArg x ?_)
  funext a
  match a with
  | ⟨0, _⟩ => rfl

/-! ## The index maps, decided over the four points -/

theorem hz : (![0, 0] : Fin 2 → Nat) = fun _ => 0 := funext fun a => by fin_cases a <;> rfl

/-- Every input window sits at block (0, 0) at every point; the output window's block row is the point's number,
    which is also the point's grid coordinate; its block column is 0. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ (grid0.coords t 0).val = t.val ∧ t.val < 4 :=
  (by decide +kernel : ∀ t : Fin grid0.N, _)

/-! ## What a point writes back -/

/-- Point `t` writes back block `t` of the scatter. -/
theorem flushed_eq (c : Dev nD) (t : Fin cfg0.N) :
    (dats m 0 c).flushed 3 t = ((cfg0.win 3).blk t).view.read (Elt Ideal) (want m c) := by
  rw [Cert.KernelIdeal.ValueP.flushed3]
  unfold out0_3
  rw [View.canon_unit_zero hz]
  simp only [View.ld_unit_zero (S := S1x1024) hz, View.ld_unit_zero (S := S1024x128) hz]
  obtain ⟨a00, a01, a10, a11, a20, a21, o0, o1, g0, -⟩ := idx_facts t
  funext j
  obtain ⟨p, q, rfl⟩ : ∃ (p : Fin 512) (q : Fin 128), j = ix2 p q := ⟨j 0, j 1, eq_ix2 j⟩
  show k0_pay1 (F := Ideal) (grid0.coords t) (iblk m c 0 t) (iblk m c 1 t) (iblk m c 2 t) (ix2 p q)
    = want m c (((cfg0.win 3).blk t).view.emb (ix2 p q))
  refine Cert.Span.Kern.pay_apply (grid0.coords t) (iblk m c 0 t) (iblk m c 1 t) (iblk m c 2 t) (starts m c) (ends m c) (embed m c)
    ?_ ?_ ?_ p q (((cfg0.win 3).blk t).view.emb (ix2 p q)) ?_ ?_
  · intro k
    show V m c main_v0 (((cfg0.win 0).blk t).view.emb (ix2 0 k)) = starts m c (ix1 k)
    have e : ((cfg0.win 0).blk t).view.emb (ix2 (0 : Fin 1) k) = ix2 0 k := by
      funext a; apply Fin.ext
      match a with
      | ⟨0, _⟩ => show win0_0.index t (0 : Fin 2) * 1 + 1 * 0 = 0; omega
      | ⟨1, _⟩ => show win0_0.index t (1 : Fin 2) * 1024 + 1 * k.val = k.val; omega
    rw [e, V_v0, reshape_row]
  · intro k
    show V m c main_v1 (((cfg0.win 1).blk t).view.emb (ix2 0 k)) = ends m c (ix1 k)
    have e : ((cfg0.win 1).blk t).view.emb (ix2 (0 : Fin 1) k) = ix2 0 k := by
      funext a; apply Fin.ext
      match a with
      | ⟨0, _⟩ => show win0_1.index t (0 : Fin 2) * 1 + 1 * 0 = 0; omega
      | ⟨1, _⟩ => show win0_1.index t (1 : Fin 2) * 1024 + 1 * k.val = k.val; omega
    rw [e, V_v1, reshape_row]
  · intro k q'
    show V m c main_arg2 (((cfg0.win 2).blk t).view.emb (ix2 k q')) = embed m c (ix2 k q')
    have e : ((cfg0.win 2).blk t).view.emb (ix2 k q') = ix2 k q' := by
      funext a; apply Fin.ext
      match a with
      | ⟨0, _⟩ => show win0_2.index t (0 : Fin 2) * 1024 + 1 * k.val = k.val; omega
      | ⟨1, _⟩ => show win0_2.index t (1 : Fin 2) * 128 + 1 * q'.val = q'.val; omega
    rw [e, V_main_arg2]
  · show win0_3.index t (0 : Fin 2) * 512 + 1 * p.val = (grid0.coords t 0).val * 512 + p.val
    omega
  · apply Fin.ext
    show win0_3.index t (1 : Fin 2) * 128 + 1 * q.val = q.val
    omega

/-! ## The four blocks tile the result -/

/-- An index of the result is in point `t`'s block iff each coordinate is in the block's range on its axis. -/
theorem mem_blk (t : Fin cfg0.N) (i : S2048x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v2).slice (win0_3.rect t)).set ↔ _
  rw [View.set_slice_whole, Rect.mem_set_unit]
  exact Iff.rfl

/-- Row r of the result lies in the block of point r / 512, which writes it back. -/
theorem cover (i : S2048x128.Idx) : ∃ t : Fin cfg0.N, (cfg0.win 3).flush t = true ∧ i ∈ ((cfg0.win 3).blk t).view.set := by
  have hi0 : (i 0).val < 2048 := (i 0).isLt
  have hi1 : (i 1).val < 128 := (i 1).isLt
  have hN : cfg0.N = 4 := N_0
  refine ⟨⟨(i 0).val / 512, by rw [hN]; omega⟩, flush0_3 _, ?_⟩
  obtain ⟨-, -, -, -, -, -, o0, o1, -, -⟩ := idx_facts ⟨(i 0).val / 512, by rw [hN]; omega⟩
  rw [mem_blk]
  intro a
  match a with
  | ⟨0, _⟩ =>
    show win0_3.index _ (0 : Fin 2) * 512 ≤ (i 0).val ∧ (i 0).val < win0_3.index _ (0 : Fin 2) * 512 + 512
    rw [o0]; show (i 0).val / 512 * 512 ≤ (i 0).val ∧ (i 0).val < (i 0).val / 512 * 512 + 512; omega
  | ⟨1, _⟩ =>
    show win0_3.index _ (1 : Fin 2) * 128 ≤ (i 1).val ∧ (i 1).val < win0_3.index _ (1 : Fin 2) * 128 + 128
    rw [o1]; omega

/-- The result array after the run is the scatter of the three arguments. -/
theorem final (c : Dev nD) : (dats m 0 c).arrAt 3 cfg0.N = want m c :=
  (dats m 0 c).arrAt_eq_of_cover 3 (want m c) (fun t _ => flushed_eq m c t) cover

/-! ## The run, read -/

/-- Every weakly fair execution of the kernel program ends with the result at the scatter of the arguments as
    launched, the arguments unchanged. -/
theorem run : θ_run defs (onTc (τ := τ) (main (F := Ideal))) ⟨m, fun _ => 0, ρ⟩ fun r => ∀ c : Dev nD,
      r.2.mem ((c : Thread nD τ).loc main_v2) = want m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.ValueP.run_blocks m ρ)

end Cert.Span.Arr

end
-- ==== Proof.SpanRef.lean ====
/-
  The reference computes the span scatter.

  The reference builds the [1024, 2048] table of span bits (node k down the rows, token t along the columns: the
  two signed comparisons against an iota of the tokens, conjoined), converts it to 0 / 1, and contracts its node
  axis against the node axis of the embedding table. Read at (t, q) that contraction is the sum over the nodes k
  of the bit of (k, t) times embed (k, q): the scatter's own sum, term by term.
-/
import proofs.«155552_j31129922962204_1_alg».proof.Proof.Gen.ReferenceIdeal.Read
import proofs.«155552_j31129922962204_1_alg».proof.Proof.SpanSpec

noncomputable section

namespace Cert.Span.Ref

open Cert.ReferenceIdeal Cert.ReferenceIdeal.Gen Cert.ReferenceIdeal.Read Idealize.ShloMosaic Idealize.ShloMosaic.ValueIdx

/-- The reference's result, as the read-back stage of its last operation, is the scatter of its three arguments. -/
theorem result_eq (starts ends : IVec S1024 32) (embed : FVec Ideal S1024x128 .f32) :
    val_main_v13 (F := Ideal) starts ends embed = Cert.Span.G starts ends embed := by
  funext i
  rw [val_main_v13_apply]
  refine Finset.sum_congr rfl fun k _ => ?_
  -- the node row of the bit table that the contraction reads, and the embedding entry beside it
  have es : idx_main_v1 (idx_main_v3 (lidx_main_v13 i k)) = ix1 k := funext fun a => by
    match a with
    | ⟨0, _⟩ => rfl
  have ee : idx_main_v7 (idx_main_v9 (lidx_main_v13 i k)) = ix1 k := funext fun a => by
    match a with
    | ⟨0, _⟩ => rfl
  have er : ridx_main_v13 i k = ix2 k (i 1) := funext fun a => by
    match a with
    | ⟨0, _⟩ => rfl
    | ⟨1, _⟩ => rfl
  rw [val_main_v12_apply, val_main_v11_apply, val_main_v5_apply, val_main_v10_apply, val_main_v3_apply, val_main_v1_apply,
    val_main_v4_apply, val_main_v2_apply, val_main_v0_apply, val_main_v8_apply, val_main_v6_apply, val_main_v0_apply,
    val_main_v9_apply, val_main_v7_apply, es, ee, er]
  rfl

end Cert.Span.Ref

end
-- ==== Proof.lean ====
/-
  Span scatter by a masked matrix product, against its einsum reference, over the extended reals.

  Node k owns the closed token span [starts k, ends k]; token t receives the embedding rows of every node whose
  span holds it:   out (t, q) = Σ_{k < 1024} [starts k ≤ t ≤ ends k] · embed (k, q),   t < 2048, q < 128.

  The kernel cuts the tokens into four blocks of 512 rows. For its block it builds the [512, 1024] table of span
  bits (two signed comparisons of the token word against the nodes' bounds, conjoined), converts it to 0 / 1 and
  multiplies it into the embedding table; the roundings to a narrower float format on the way are the identity on
  the extended reals. The reference builds the transposed [1024, 2048] table for all tokens at once and contracts
  its node axis against the embedding table's. Read at an entry (t, q), each side is the sum above, term by term
  (a bit widened to a word and read signed, and the bit read unsigned, are both its indicator): no law of the
  extended reals is used beyond reading each product as its sum, and the inputs' finiteness is never opened.

  The modules: the scatter as one function and the two facts about a bit (SpanSpec); a plain matrix product read at
  an entry (LibPlainDot); the kernel's stored block at an entry (SpanKernel); from the four blocks to the whole
  result array, and the kernel's run (SpanArray); the reference's last stage read at an entry (SpanRef). The kernel
  programs' frames are the generated frame certificates in their repaired copies (KernelFrame, KernelIdealFrame,
  and the value leg over the latter, KernelIdealValue); the reference's frame is its generated run with the result
  dropped. The idealization rewrote nothing, so there is nothing to preserve.
-/
import proofs.«155552_j31129922962204_1_alg».proof.Defs
import proofs.«155552_j31129922962204_1_alg».proof.Proof.Gen.Kernel
import proofs.«155552_j31129922962204_1_alg».proof.Proof.Gen.Kernel.Skeleton
import proofs.«155552_j31129922962204_1_alg».proof.Proof.Gen.Kernel.Launch
import proofs.«155552_j31129922962204_1_alg».proof.Proof.Gen.Kernel.Points
import proofs.«155552_j31129922962204_1_alg».proof.Proof.KernelFrame
import proofs.«155552_j31129922962204_1_alg».proof.Proof.Gen.KernelIdeal
import proofs.«155552_j31129922962204_1_alg».proof.Proof.Gen.KernelIdeal.Skeleton
import proofs.«155552_j31129922962204_1_alg».proof.Proof.Gen.KernelIdeal.Launch
import proofs.«155552_j31129922962204_1_alg».proof.Proof.Gen.KernelIdeal.Points
import proofs.«155552_j31129922962204_1_alg».proof.Proof.KernelIdealFrame
import proofs.«155552_j31129922962204_1_alg».proof.Proof.Gen.ReferenceIdeal
import proofs.«155552_j31129922962204_1_alg».proof.Proof.Gen.Pre_finite_inputs
import proofs.«155552_j31129922962204_1_alg».proof.Proof.KernelIdealValue
import proofs.«155552_j31129922962204_1_alg».proof.Proof.Gen.ReferenceIdeal.Run
import proofs.«155552_j31129922962204_1_alg».proof.Proof.Gen.ReferenceIdeal.Read
import proofs.«155552_j31129922962204_1_alg».proof.Proof.SpanArray
import proofs.«155552_j31129922962204_1_alg».proof.Proof.SpanRef
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel := fun m ρ _ => Cert.Kernel.GenP.frame m ρ

/-- So does the kernel program read on the extended reals. -/
theorem frame_ki : Cert.frame_KernelIdeal := fun m ρ _ => Cert.KernelIdeal.GenP.frame m ρ

/-- The reference runs and leaves its arguments as they were: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the span scatter of those arguments in
    their result arrays: the kernel's four blocks tile it, and the reference's contraction is it entry by entry. -/
theorem algebraic : Cert.algebraic_KernelIdeal_ReferenceIdeal := by
  intro m ρ m' ρ' _ hagree
  refine ⟨fun c => Cert.Span.Arr.want m c, Cert.Span.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Span.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
